-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4x5636096 : Shape := ⟨2, ![4, 5636096]⟩
abbrev S4x11008x16 : Shape := ⟨3, ![4, 11008, 16]⟩
abbrev S4x16x4096 : Shape := ⟨3, ![4, 16, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4x11008x16 : S_.BroadcastsInDim S4x11008x16 (![] : Fin 0 → Fin S4x11008x16.rank)
  reducesTo_S4x11008x16_S_d0_1_2 : S4x11008x16.ReducesTo [0, 1, 2] S_
  bcast_S_S4x16x4096 : S_.BroadcastsInDim S4x16x4096 (![] : Fin 0 → Fin S4x16x4096.rank)
  reducesTo_S4x16x4096_S_d0_1_2 : S4x16x4096.ReducesTo [0, 1, 2] S_

variable [Facts]

def fn {F : FTy → Type} [FloatOps F] (main_arg0 : FVec F S2048x4096 .f32) (main_arg1 : IVec S4x5636096 32) (main_arg2 : FVec F S4x11008x16 .f32) (main_arg3 : FVec F S4x16x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4x11008x16 .f32 := Host.absf main_arg2
  let main_cst_0 : FVec F S_ .f32 := constant S_ .f32 0x7F800000#32
  let main_v5 : FVec F S4x11008x16 .f32 := broadcastInDim S4x11008x16 ![] bcast_S_S4x11008x16 main_cst_0
  let main_v6 : IVec S4x11008x16 1 := cmpf .olt main_v4 main_v5
  let main_c_1 : IVec S_ 1 := constantI S_ 1 1#1
  let main_v7 : IVec S_ 1 := (fun x v => Host.reduce IntOp.andi x v reducesTo_S4x11008x16_S_d0_1_2 h_S_) main_v6 main_c_1
  let main_v8 : IVec S_ 1 := andi main_v3 main_v7
  let main_v9 : FVec F S4x16x4096 .f32 := Host.absf main_arg3
  let main_cst_2 : FVec F S_ .f32 := constant S_ .f32 0x7F800000#32
  let main_v10 : FVec F S4x16x4096 .f32 := broadcastInDim S4x16x4096 ![] bcast_S_S4x16x4096 main_cst_2
  let main_v11 : IVec S4x16x4096 1 := cmpf .olt main_v9 main_v10
  let main_c_3 : IVec S_ 1 := constantI S_ 1 1#1
  let main_v12 : IVec S_ 1 := (fun x v => Host.reduce IntOp.andi x v reducesTo_S4x16x4096_S_d0_1_2 h_S_) main_v11 main_c_3
  let main_v13 : IVec S_ 1 := andi main_v8 main_v12
  main_v13
-- ==== Kernel.lean ====
abbrev S2048x4096 : Shape := ⟨2, ![2048, 4096]⟩
abbrev S4x5636096 : Shape := ⟨2, ![4, 5636096]⟩
abbrev S4x11008x16 : Shape := ⟨3, ![4, 11008, 16]⟩
abbrev S4x16x4096 : Shape := ⟨3, ![4, 16, 4096]⟩
abbrev S4x11008x512 : Shape := ⟨3, ![4, 11008, 512]⟩
abbrev S2048x11008 : Shape := ⟨2, ![2048, 11008]⟩
abbrev S4x256x512 : Shape := ⟨3, ![4, 256, 512]⟩
abbrev S4x256x16 : Shape := ⟨3, ![4, 256, 16]⟩
abbrev S2048x256 : Shape := ⟨2, ![2048, 256]⟩
abbrev S1x8 : Shape := ⟨2, ![1, 8]⟩
abbrev S8 : Shape := ⟨1, ![8]⟩
abbrev S256x4096 : Shape := ⟨2, ![256, 4096]⟩
abbrev S1x256x512 : Shape := ⟨3, ![1, 256, 512]⟩
abbrev S256x512 : Shape := ⟨2, ![256, 512]⟩
abbrev S256x512x1 : Shape := ⟨3, ![256, 512, 1]⟩
abbrev S1x1x8 : Shape := ⟨3, ![1, 1, 8]⟩
abbrev S256x512x8 : Shape := ⟨3, ![256, 512, 8]⟩
abbrev S1x256x16 : Shape := ⟨3, ![1, 256, 16]⟩
abbrev S256x16 : Shape := ⟨2, ![256, 16]⟩
abbrev S1x16x4096 : Shape := ⟨3, ![1, 16, 4096]⟩
abbrev S16x4096 : Shape := ⟨2, ![16, 4096]⟩
abbrev S4096x256 : Shape := ⟨2, ![4096, 256]⟩

abbrev nBuf : Space → Nat
  | .hbm => 7
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4x5636096, .i32⟩
  | .hbm, ⟨2, _⟩ => ⟨S4x11008x16, .f32⟩
  | .hbm, ⟨3, _⟩ => ⟨S4x16x4096, .f32⟩
  | .hbm, ⟨4, _⟩ => ⟨S4x11008x512, .i32⟩
  | .hbm, ⟨5, _⟩ => ⟨S2048x4096, .bf16⟩
  | .hbm, ⟨6, _⟩ => ⟨S2048x11008, .f32⟩
  | .local _ .vmem, ⟨0, _⟩ => ⟨S2048x4096, .bf16⟩
  | .local _ .vmem, ⟨1, _⟩ => ⟨S4x256x512, .i32⟩
  | .local _ .vmem, ⟨2, _⟩ => ⟨S4x256x512, .i32⟩
  | .local _ .vmem, ⟨3, _⟩ => ⟨S4x256x16, .f32⟩
  | .local _ .vmem, ⟨4, _⟩ => ⟨S4x256x16, .f32⟩
  | .local _ .vmem, ⟨5, _⟩ => ⟨S4x16x4096, .f32⟩
  | .local _ .vmem, ⟨6, _⟩ => ⟨S2048x256, .f32⟩
  | .local _ .vmem, ⟨7, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x5636096_S4x11008x512 : S4x5636096.ShapeCasts S4x11008x512
  bitsLt_bf16_f32 : FTy.bits .bf16 < FTy.bits .f32
  iota_S1x8_d1_w32 : S1x8.Iotas .tc 32 [1]
  shapeCasts_S1x8_S8 : S1x8.ShapeCasts S8
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  shapeCasts_S256x512_S256x512x1 : S256x512.ShapeCasts S256x512x1
  shapeCasts_S8_S1x1x8 : S8.ShapeCasts S1x1x8
  broadcasts_S256x512x1_S256x512x8 : S256x512x1.Broadcasts S256x512x8
  broadcasts_S1x1x8_S256x512x8 : S1x1x8.Broadcasts S256x512x8
  shapeCasts_S256x512x8_S256x4096 : S256x512x8.ShapeCasts S256x4096
  inb_S4x256x16_S1x256x16_0_0_0 : ∀ a, (![0, 0, 0] : Fin 3 → Nat) a + S1x256x16.size a ≤ S4x256x16.size a
  h_S1x256x16 : 0 < S1x256x16.numel
  shapeCasts_S1x256x16_S256x16 : S1x256x16.ShapeCasts S256x16
  inb_S4x16x4096_S1x16x4096_0_0_0 : ∀ a, (![0, 0, 0] : Fin 3 → Nat) a + S1x16x4096.size a ≤ S4x16x4096.size a
  h_S1x16x4096 : 0 < S1x16x4096.numel
  shapeCasts_S1x16x4096_S16x4096 : S1x16x4096.ShapeCasts S16x4096
  inb_S4x256x512_S1x256x512_1_0_0 : ∀ a, (![1, 0, 0] : Fin 3 → Nat) a + S1x256x512.size a ≤ S4x256x512.size a
  inb_S4x256x16_S1x256x16_1_0_0 : ∀ a, (![1, 0, 0] : Fin 3 → Nat) a + S1x256x16.size a ≤ S4x256x16.size a
  inb_S4x16x4096_S1x16x4096_1_0_0 : ∀ a, (![1, 0, 0] : Fin 3 → Nat) a + S1x16x4096.size a ≤ S4x16x4096.size a
  inb_S4x256x512_S1x256x512_2_0_0 : ∀ a, (![2, 0, 0] : Fin 3 → Nat) a + S1x256x512.size a ≤ S4x256x512.size a
  inb_S4x256x16_S1x256x16_2_0_0 : ∀ a, (![2, 0, 0] : Fin 3 → Nat) a + S1x256x16.size a ≤ S4x256x16.size a
  inb_S4x16x4096_S1x16x4096_2_0_0 : ∀ a, (![2, 0, 0] : Fin 3 → Nat) a + S1x16x4096.size a ≤ S4x16x4096.size a
  inb_S4x256x512_S1x256x512_3_0_0 : ∀ a, (![3, 0, 0] : Fin 3 → Nat) a + S1x256x512.size a ≤ S4x256x512.size a
  inb_S4x256x16_S1x256x16_3_0_0 : ∀ a, (![3, 0, 0] : Fin 3 → Nat) a + S1x256x16.size a ≤ S4x256x16.size a
  inb_S4x16x4096_S1x16x4096_3_0_0 : ∀ a, (![3, 0, 0] : Fin 3 → Nat) a + S1x16x4096.size a ≤ S4x16x4096.size a
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  transposes_S256x4096_p1_0_S4096x256 : S256x4096.Transposes [1, 0] S4096x256
  inb_S2048x256_S2048x256_0_0 : ∀ a, (![0, 0] : Fin 2 → Nat) a + S2048x256.size a ≤ S2048x256.size a
  h_S2048x256 : 0 < S2048x256.numel
  dot_S256x16_S16x4096_S256x4096_1_0_0_1_n_n_wf : DotDims.WF S256x16 S16x4096 S256x4096 [1] [0] [0] [1] [] []
  dot_S2048x4096_S4096x256_S2048x256_1_0_0_1_n_n_wf : DotDims.WF S2048x4096 S4096x256 S2048x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x512.size a ≤ S4x11008x512.size a
  hwx0_1 : ∀ i : grid0.Coords, EltTy.bits .i32 = 32 ∨ (Rect.block (s := S4x11008x512) S4x256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x16.size a ≤ S4x11008x16.size a
  hwx0_2 : ∀ i : grid0.Coords, EltTy.bits .f32 = 32 ∨ (Rect.block (s := S4x11008x16) S4x256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16x4096.size a ≤ S4x16x4096.size a
  hwx0_3 : ∀ i : grid0.Coords, EltTy.bits .f32 = 32 ∨ (Rect.block (s := S4x16x4096) S4x16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x11008.size a
  hwx0_4 : ∀ i : grid0.Coords, EltTy.bits .f32 = 32 ∨ (Rect.block (s := S2048x11008) S2048x256.size (cc0_transform_4 i) (hinb0_4 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf

abbrev win0_0 : Pipeline.Window sig grid0 :=
  Pipeline.Window.ofSpec (Memref.whole main_v1) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4x5636096 : Shape := ⟨2, ![4, 5636096]⟩
abbrev S4x11008x16 : Shape := ⟨3, ![4, 11008, 16]⟩
abbrev S4x16x4096 : Shape := ⟨3, ![4, 16, 4096]⟩
abbrev S8 : Shape := ⟨1, ![8]⟩
abbrev S4x5636096x1 : Shape := ⟨3, ![4, 5636096, 1]⟩
abbrev S1x1x8 : Shape := ⟨3, ![1, 1, 8]⟩
abbrev S4x5636096x8 : Shape := ⟨3, ![4, 5636096, 8]⟩
abbrev S_ : Shape := ⟨0, ![]⟩
abbrev S4x11008x4096 : Shape := ⟨3, ![4, 11008, 4096]⟩
abbrev S11008x4096 : Shape := ⟨2, ![11008, 4096]⟩
abbrev S4096x11008 : Shape := ⟨2, ![4096, 11008]⟩
abbrev S2048x11008 : Shape := ⟨2, ![2048, 11008]⟩

abbrev nBuf : Space → Nat
  | .hbm => 27
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x5636096, .i32⟩
  | .hbm, ⟨2, _⟩ => ⟨S4x11008x16, .f32⟩
  | .hbm, ⟨3, _⟩ => ⟨S4x16x4096, .f32⟩
  | .hbm, ⟨4, _⟩ => ⟨S8, .i32⟩
  | .hbm, ⟨5, _⟩ => ⟨S4x5636096x1, .i32⟩
  | .hbm, ⟨6, _⟩ => ⟨S1x1x8, .i32⟩
  | .hbm, ⟨7, _⟩ => ⟨S4x5636096x8, .i32⟩
  | .hbm, ⟨8, _⟩ => ⟨S4x5636096x8, .i32⟩
  | .hbm, ⟨9, _⟩ => ⟨S4x5636096x8, .i32⟩
  | .hbm, ⟨10, _⟩ => ⟨S_, .i32⟩
  | .hbm, ⟨11, _⟩ => ⟨S4x5636096x8, .i32⟩
  | .hbm, ⟨12, _⟩ => ⟨S4x5636096x8, .i32⟩
  | .hbm, ⟨13, _⟩ => ⟨S_, .i32⟩
  | .hbm, ⟨14, _⟩ => ⟨S4x5636096x8, .i32⟩
  | .hbm, ⟨15, _⟩ => ⟨S4x5636096x8, .i32⟩
  | .hbm, ⟨16, _⟩ => ⟨S_, .i32⟩
  | .hbm, ⟨17, _⟩ => ⟨S4x5636096x8, .i32⟩
  | .hbm, ⟨18, _⟩ => ⟨S4x5636096x8, .i32⟩
  | .hbm, ⟨19, _⟩ => ⟨S4x5636096x8, .f32⟩
  | .hbm, ⟨20, _⟩ => ⟨S4x11008x4096, .f32⟩
  | .hbm, ⟨21, _⟩ => ⟨S4x11008x4096, .f32⟩
  | .hbm, ⟨22, _⟩ => ⟨S4x11008x4096, .f32⟩
  | .hbm, ⟨23, _⟩ => ⟨S_, .f32⟩
  | .hbm, ⟨24, _⟩ => ⟨S11008x4096, .f32⟩
  | .hbm, ⟨25, _⟩ => ⟨S4096x11008, .f32⟩
  | .hbm, ⟨26, _⟩ => ⟨S2048x11008, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S4x5636096_S4x5636096x1_0_1 : S4x5636096.BroadcastsInDim S4x5636096x1 (![0, 1] : Fin 2 → Fin S4x5636096x1.rank)
  bcast_S8_S1x1x8_2 : S8.BroadcastsInDim S1x1x8 (![2] : Fin 1 → Fin S1x1x8.rank)
  bcast_S4x5636096x1_S4x5636096x8_0_1_2 : S4x5636096x1.BroadcastsInDim S4x5636096x8 (![0, 1, 2] : Fin 3 → Fin S4x5636096x8.rank)
  bcast_S1x1x8_S4x5636096x8_0_1_2 : S1x1x8.BroadcastsInDim S4x5636096x8 (![0, 1, 2] : Fin 3 → Fin S4x5636096x8.rank)
  bcast_S_S4x5636096x8 : S_.BroadcastsInDim S4x5636096x8 (![] : Fin 0 → Fin S4x5636096x8.rank)
  shapeCasts_S4x5636096x8_S4x11008x4096 : S4x5636096x8.ShapeCasts S4x11008x4096
  reducesTo_S4x11008x4096_S11008x4096_d0 : S4x11008x4096.ReducesTo [0] S11008x4096
  h_S_ : 0 < S_.numel
  transposes_S11008x4096_S4096x11008_1_0 : S11008x4096.Transposes [1, 0] S4096x11008
  dot_S4x11008x16_S4x16x4096_S4x11008x4096_2_1_1_2_0_0_wf : DotDims.WF S4x11008x16 S4x16x4096 S4x11008x4096 [2] [1] [1] [2] [0] [0]
  dot_S2048x4096_S4096x11008_S2048x11008_1_0_0_1_n_n_wf : DotDims.WF S2048x4096 S4096x11008 S2048x11008 [1] [0] [0] [1] [] []

variable [Facts₀]

def dot_S4x11008x16_S4x16x4096_S4x11008x4096_2_1_1_2_0_0 : DotDims S4x11008x16 S4x16x4096 S4x11008x4096 where
  lhsContracting := [2]
  rhsContracting := [1]
  lhsNonContracting := [1]
  rhsNonContracting := [2]
  lhsBatch := [0]
  rhsBatch := [0]
  wf := dot_S4x11008x16_S4x16x4096_S4x11008x4096_2_1_1_2_0_0_wf
def dot_S2048x4096_S4096x11008_S2048x11008_1_0_0_1_n_n : DotDims S2048x4096 S4096x11008 S2048x11008 where
  lhsContracting := [1]
  rhsContracting := [0]
  lhsNonContracting := [0]
  rhsNonContracting := [1]
  lhsBatch := []
  rhsBatch := []
  wf := dot_S2048x4096_S4096x11008_S2048x11008_1_0_0_1_n_n_wf

class Facts : Prop extends Facts₀ where

variable [Facts]
-- ==== Proof.Spec.lean ====
/-
  The bit-plane linear layer as ONE function of its four arrays.

  The weight matrix is never stored: entry `(o, i)` of it is a sum over four bit planes `b` of a sign times a
  rank-16 correction,
      W (o, i) = ∑ b, sgn_b (o, i) · ∑ k, u (b, o, k) · vt (b, k, i),
  where the sign of plane `b` at `(o, i)` is bit `i % 8` of the packed word at flat position `o · 512 + i / 8` of
  plane `b` (eight signs to a word, least significant first; a set bit is `+1`, a clear bit `-1`), computed as the
  signed integer `2 · ((word >>ₛ bit) & 1) − 1`. The layer's output is `y (t, o) = ∑ i, x (t, i) · W (o, i)`.
  Everything is read on the extended reals, where a sum has no order and no rounding.
-/
import Idealize.ShloMosaic.PureOps.Ideal.Laws
import Idealize.ShloMosaic.Lib.ValueIdx

noncomputable section

namespace Cert.BitPlanes

open Idealize.ShloMosaic Idealize.ShloMosaic.ValueIdx

/-- The sign a packed word `w` carries at bit position `s`, with the arithmetic shift of unit `un`:
    the signed integer `2 · ((w >>ₛ s) & 1) − 1`, exactly, as a real. -/
def sign (un : ArithUnit) (w s : BitVec 32) : EReal :=
  FloatOps.sitofp (F := Ideal) .f32 (IntOp.subi (IntOp.muli 2#32 (IntOp.andi (IntOp.shrsi un w s) 1#32)) 1#32)

/-- A shift by less than the width is the same word on every unit: the units differ only at the corner. -/
theorem shrsi_unit (un un' : ArithUnit) (w s : BitVec 32) (hs : s.toNat < 32) :
    IntOp.shrsi un w s = IntOp.shrsi un' w s := by
  unfold IntOp.shrsi
  rw [if_pos hs, if_pos hs]

/-- A bit position below eight, as a word, is a shift below the width. -/
theorem bit_toNat_lt (n : ℕ) (hn : n < 8) : (BitVec.ofNat 32 n).toNat < 32 := by
  rw [BitVec.toNat_ofNat]
  exact lt_of_le_of_lt (Nat.mod_le _ _) (by omega)

/-- So the sign at a bit position below eight does not depend on the unit that shifts. -/
theorem sign_unit (un un' : ArithUnit) (w : BitVec 32) (n : ℕ) (hn : n < 8) :
    sign un w (BitVec.ofNat 32 n) = sign un' w (BitVec.ofNat 32 n) := by
  unfold sign
  rw [shrsi_unit un un' w _ (bit_toNat_lt n hn)]

/-- Where the packed array keeps the word of plane `b` that holds the sign at `(o, i)`: 512 words to a row. -/
abbrev wordAt (b : Fin 4) (o : Fin 11008) (i : Fin 4096) : (⟨2, ![4, 5636096]⟩ : Shape).Idx :=
  ix2 b ⟨o.val * 512 + i.val / 8, by have := o.isLt; have := i.isLt; omega⟩

/-- Entry `(o, i)` of the weight matrix: over the four planes, the plane's sign there times its rank-16 correction. -/
def weight (q : (⟨2, ![4, 5636096]⟩ : Shape).Idx → BitVec 32) (u : (⟨3, ![4, 11008, 16]⟩ : Shape).Idx → EReal)
    (vt : (⟨3, ![4, 16, 4096]⟩ : Shape).Idx → EReal) (o : Fin 11008) (i : Fin 4096) : EReal :=
  ∑ b : Fin 4, sign .host (q (wordAt b o i)) (BitVec.ofNat 32 (i.val % 8)) * ∑ k : Fin 16, u (ix3 b o k) * vt (ix3 b k i)

/-- The layer: `y (t, o) = ∑ i, x (t, i) · W (o, i)`. -/
def layer (x : (⟨2, ![2048, 4096]⟩ : Shape).Idx → EReal) (q : (⟨2, ![4, 5636096]⟩ : Shape).Idx → BitVec 32)
    (u : (⟨3, ![4, 11008, 16]⟩ : Shape).Idx → EReal) (vt : (⟨3, ![4, 16, 4096]⟩ : Shape).Idx → EReal) :
    (⟨2, ![2048, 11008]⟩ : Shape).Idx → EReal :=
  fun j => ∑ i : Fin 4096, x (ix2 (j 0) i) * weight q u vt (j 1) i

/-- Four terms added one after another onto zero are their sum: addition of extended reals is associative and
    zero is its unit, so no finiteness is asked. -/
theorem fold_four (a : Fin 4 → EReal) : (((0 + a 0) + a 1) + a 2) + a 3 = ∑ b : Fin 4, a b := by
  rw [Fin.sum_univ_four, zero_add]

end Cert.BitPlanes

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Body.lean ====
/-
  What the kernel's body computes for one tile of 256 output rows, entry by entry.

  The body sees the whole of `x` (cast to a narrower format, which changes nothing on the reals), the tile's 256 rows of
  packed words and of `u` for each of the four planes, and the whole of `vt`. For each plane it shifts every word by the
  bit positions `0 … 7`, keeps the low bit, turns it into `±1`, lays the `[256, 512, 8]` signs out as `[256, 4096]`
  (sign `i` of a row is bit `i % 8` of word `i / 8`), multiplies by the plane's rank-16 product and adds the result onto
  an accumulator that starts at zero; the tile of the output is `x` times the accumulator transposed. Read at entry
  `(p, c)` of the tile this is `∑ i, x (p, i) · ∑ b, sgn_b (c, i) · ∑ k, u_b (c, k) · vt_b (k, i)`.
-/
import proofs.«412685_j70798240907324_1_alg».proof.Proof.Gen.KernelIdeal.Skeleton
import proofs.«412685_j70798240907324_1_alg».proof.Proof.Spec
import proofs.«412685_j70798240907324_1_alg».proof.Proof.LibDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.BitPlanes

/-! ## Re-laid arrays read at an index -/

section layout
variable {α : Type} {a b n : ℕ}

/-- An `[a, b]` array given a trailing unit axis reads, at `(c, j, ·)`, the operand at `(c, j)`. -/
theorem cast_ab_ab1_apply (x : (⟨2, ![a, b]⟩ : Shape).Idx → α) (h : (⟨2, ![a, b]⟩ : Shape).ShapeCasts ⟨3, ![a, b, 1]⟩)
    (c : Fin a) (j : Fin b) (z : Fin 1) : shapeCast ⟨3, ![a, b, 1]⟩ x h (ix3 c j z) = x (ix2 c j) :=
  shapeCast_apply x h _ _ (by
    have hz : z.val = 0 := by omega
    rw [Shape.rowMajor_val_three, Shape.rowMajor_val_two]
    show c.val * b + j.val = (c.val * b + j.val) * 1 + z.val
    rw [hz, Nat.mul_one, Nat.add_zero])

/-- An `[n]` array given two leading unit axes reads, at `(·, ·, s)`, the operand at `s`. -/
theorem cast_n_11n_apply (x : (⟨1, ![n]⟩ : Shape).Idx → α) (h : (⟨1, ![n]⟩ : Shape).ShapeCasts ⟨3, ![1, 1, n]⟩)
    (z z' : Fin 1) (s : Fin n) : shapeCast ⟨3, ![1, 1, n]⟩ x h (ix3 z z' s) = x (ix1 s) :=
  shapeCast_apply x h _ _ (by
    have hz : z.val = 0 := by omega
    have hz' : z'.val = 0 := by omega
    rw [Shape.rowMajor_val_three, Shape.rowMajor_val_one]
    show s.val = (z.val * 1 + z'.val) * n + s.val
    rw [hz, hz']
    simp)

/-- An `[a, b, 1]` array repeated along its last axis reads, at `(c, j, s)`, the operand at `(c, j, 0)`. -/
theorem repeat_last_apply (x : (⟨3, ![a, b, 1]⟩ : Shape).Idx → α) (h : (⟨3, ![a, b, 1]⟩ : Shape).Broadcasts ⟨3, ![a, b, n]⟩)
    (c : Fin a) (j : Fin b) (s : Fin n) : broadcastTo ⟨3, ![a, b, n]⟩ x h (ix3 c j s) = x (ix3 c j (0 : Fin 1)) := by
  refine broadcastTo_apply x h (ix3 c j s) (ix3 c j (0 : Fin 1)) fun ax => ?_
  match ax with
  | ⟨0, _⟩ =>
    show c.val = if a = 1 then 0 else c.val
    split
    · have := c.isLt; omega
    · rfl
  | ⟨1, _⟩ =>
    show j.val = if b = 1 then 0 else j.val
    split
    · have := j.isLt; omega
    · rfl
  | ⟨2, _⟩ => rfl

/-- A `[1, 1, n]` array repeated along its first two axes reads, at `(c, j, s)`, the operand at `(0, 0, s)`. -/
theorem repeat_first2_apply (x : (⟨3, ![1, 1, n]⟩ : Shape).Idx → α) (h : (⟨3, ![1, 1, n]⟩ : Shape).Broadcasts ⟨3, ![a, b, n]⟩)
    (c : Fin a) (j : Fin b) (s : Fin n) : broadcastTo ⟨3, ![a, b, n]⟩ x h (ix3 c j s) = x (ix3 (0 : Fin 1) (0 : Fin 1) s) := by
  refine broadcastTo_apply x h (ix3 c j s) (ix3 (0 : Fin 1) (0 : Fin 1) s) fun ax => ?_
  match ax with
  | ⟨0, _⟩ => rfl
  | ⟨1, _⟩ => rfl
  | ⟨2, _⟩ =>
    show s.val = if n = 1 then 0 else s.val
    split
    · have := s.isLt; omega
    · rfl

end layout

/-- The `[256, 512, 8]` signs laid out as `[256, 4096]`: sign `i` of row `c` is bit `i % 8` of word `i / 8`. -/
theorem cast_bits_apply {α : Type} (x : (⟨3, ![256, 512, 8]⟩ : Shape).Idx → α)
    (h : (⟨3, ![256, 512, 8]⟩ : Shape).ShapeCasts ⟨2, ![256, 4096]⟩) (c : Fin 256) (i : Fin 4096) :
    shapeCast ⟨2, ![256, 4096]⟩ x h (ix2 c i)
      = x (ix3 c ⟨i.val / 8, by have := i.isLt; omega⟩ ⟨i.val % 8, Nat.mod_lt _ (by decide)⟩) :=
  shapeCast_apply x h _ _ (by
    rw [Shape.rowMajor_val_three, Shape.rowMajor_val_two]
    show (c.val * 512 + i.val / 8) * 8 + i.val % 8 = c.val * 4096 + i.val
    have := i.isLt
    omega)

/-! ## One plane and the tile, as the body spells them

The payloads of the body repeat one computation four times; here it is once, generic in the value type, and each
payload is, by unfolding, a term over these. -/

section spelled
variable {F : FTy → Type} [FloatOps F]

/-- A plane's 256 × 512 words, each shifted by every one of the positions `pos`: `[256, 512, 8]`. -/
def shifted (pos : IVec S8 32) (qb : Vec F S1x256x512 .i32) : IVec S256x512x8 32 :=
  shrsi (broadcastTo S256x512x8 (shapeCast S256x512x1 (shapeCast S256x512 qb shapeCasts_S1x256x512_S256x512) shapeCasts_S256x512_S256x512x1) broadcasts_S256x512x1_S256x512x8)
    (broadcastTo S256x512x8 (shapeCast S1x1x8 pos shapeCasts_S8_S1x1x8) broadcasts_S1x1x8_S256x512x8)

/-- The low bit `β` of each shifted word as the number `2 β − 1`. -/
def signs3 (sh : IVec S256x512x8 32) : FVec F S256x512x8 .f32 :=
  sitofp .f32 (subi (muli (broadcast S256x512x8 2#32) (andi sh (broadcast S256x512x8 1#32))) (broadcast S256x512x8 1#32))

/-- The signs, eight to a word, laid out along a row of 4096. -/
def signs (s3 : FVec F S256x512x8 .f32) : FVec F S256x4096 .f32 :=
  shapeCast S256x4096 s3 shapeCasts_S256x512x8_S256x4096

/-- A plane's rank-16 correction for the tile: its 256 rows of `u` times its `vt`. -/
def lowRank (ub : Vec F S1x256x16 .f32) (wb : Vec F S1x16x4096 .f32) : FVec F S256x4096 .f32 :=
  matmul dot_S256x16_S16x4096_S256x4096_1_0_0_1_n_n none (shapeCast S256x16 ub shapeCasts_S1x256x16_S256x16)
    (shapeCast S16x4096 wb shapeCasts_S1x16x4096_S16x4096) (constant S256x4096 .f32 0x00000000#32)

/-- The tile of the output: `x` times the transpose of the 256 accumulated weight rows. -/
def tile (acc : FVec F S256x4096 .f32) (xx : Vec F S2048x4096 .bf16) : FVec F S2048x256 .f32 :=
  matmul dot_S2048x4096_S4096x256_S2048x256_1_0_0_1_n_n none (shapeCast S2048x4096 xx shapeCasts_S2048x4096_S2048x4096)
    (transpose S4096x256 [1, 0] (truncf .bf16 acc bitsLt_bf16_f32) transposes_S256x4096_p1_0_S4096x256)
    (constant S2048x256 .f32 0x00000000#32)

theorem pay3_eq (q0 : Vec F S1x256x512 .i32) (u0 : Vec F S1x256x16 .f32) (w0 : Vec F S1x16x4096 .f32) :
    k0_pay3 q0 u0 w0 = addf (broadcast S256x4096 (Scalar.ofBits .f32 0x00000000#32))
      (mulf (signs (signs3 (shifted k0_pay2 q0))) (lowRank u0 w0)) := rfl

theorem pay4_eq (q1 : Vec F S1x256x512 .i32) : k0_pay4 q1 = signs3 (shifted k0_pay2 q1) := rfl

theorem pay5_eq (pos : IVec S8 32) (acc : FVec F S256x4096 .f32) (s1 : FVec F S256x512x8 .f32) (u1 : Vec F S1x256x16 .f32)
    (w1 : Vec F S1x16x4096 .f32) (q2 : Vec F S1x256x512 .i32) (u2 : Vec F S1x256x16 .f32) (w2 : Vec F S1x16x4096 .f32) :
    k0_pay5 pos acc s1 u1 w1 q2 u2 w2 = addf (addf acc (mulf (signs s1) (lowRank u1 w1)))
      (mulf (signs (signs3 (shifted pos q2))) (lowRank u2 w2)) := rfl

theorem pay6_eq (pos : IVec S8 32) (q3 : Vec F S1x256x512 .i32) : k0_pay6 pos q3 = shifted pos q3 := rfl

theorem pay1_eq (acc : FVec F S256x4096 .f32) (sh3 : IVec S256x512x8 32) (u3 : Vec F S1x256x16 .f32) (w3 : Vec F S1x16x4096 .f32)
    (xx : Vec F S2048x4096 .bf16) :
    k0_pay1 acc sh3 u3 w3 xx = tile (addf acc (mulf (signs (signs3 sh3)) (lowRank u3 w3))) xx := rfl

end spelled

/-! ## Read at an entry, on the extended reals -/

/-- The bit positions are `0, 1, …, 7`. -/
theorem pos_apply (s : Fin 8) : k0_pay2 (ix1 s) = BitVec.ofNat 32 s.val := by
  show shapeCast S8 (iota .tc S1x8 32 [1] iota_S1x8_d1_w32) shapeCasts_S1x8_S8 (ix1 s) = _
  rw [shapeCast_1a_a_apply]
  show BitVec.ofNat 32 (0 * 8 + s.val) = _
  rw [Nat.zero_mul, Nat.zero_add]

/-- Entry `(c, j, s)` of the shifted words is word `(c, j)` of the plane shifted by position `s`. -/
theorem shifted_apply (pos : IVec S8 32) (qb : Vec Ideal S1x256x512 .i32) (c : Fin 256) (j : Fin 512) (s : Fin 8) :
    shifted (F := Ideal) pos qb (ix3 c j s) = IntOp.shrsi .vector (qb (ix3 (0 : Fin 1) c j)) (pos (ix1 s)) := by
  show IntOp.shrsi .vector (broadcastTo S256x512x8 _ broadcasts_S256x512x1_S256x512x8 (ix3 c j s))
    (broadcastTo S256x512x8 _ broadcasts_S1x1x8_S256x512x8 (ix3 c j s)) = _
  rw [repeat_last_apply, cast_ab_ab1_apply, shapeCast_1ab_ab_apply, repeat_first2_apply, cast_n_11n_apply]

/-- The sign of a plane at `(c, i)` of the tile: bit `i % 8` of the plane's word `(c, i / 8)`. -/
theorem planeSign_apply (qb : Vec Ideal S1x256x512 .i32) (c : Fin 256) (i : Fin 4096) :
    signs (signs3 (F := Ideal) (shifted (F := Ideal) k0_pay2 qb)) (ix2 c i)
      = sign .vector (qb (ix3 (0 : Fin 1) c ⟨i.val / 8, by have := i.isLt; omega⟩)) (BitVec.ofNat 32 (i.val % 8)) := by
  unfold signs
  rw [cast_bits_apply]
  show FloatOps.sitofp (F := Ideal) .f32 (IntOp.subi (IntOp.muli 2#32 (IntOp.andi (shifted (F := Ideal) k0_pay2 qb (ix3 c _ _)) 1#32)) 1#32) = _
  rw [shifted_apply, pos_apply]
  rfl

/-- The rank-16 correction at `(c, i)`. -/
theorem lowRank_apply (ub : Vec Ideal S1x256x16 .f32) (wb : Vec Ideal S1x16x4096 .f32) (c : Fin 256) (i : Fin 4096) :
    lowRank (F := Ideal) ub wb (ix2 c i) = ∑ k : Fin 16, ub (ix3 (0 : Fin 1) c k) * wb (ix3 (0 : Fin 1) k i) := by
  refine (Cert.GNN.matmul_plain_zero_apply (M := 256) (K := 16) (N := 4096) none _ _ c i).trans ?_
  refine Finset.sum_congr rfl fun k _ => ?_
  rw [shapeCast_1ab_ab_apply, shapeCast_1ab_ab_apply]

/-- The tile at `(p, c)`: row `p` of `x` against row `c` of the accumulated weights. -/
theorem tile_apply (acc : FVec Ideal S256x4096 .f32) (xx : Vec Ideal S2048x4096 .bf16) (p : Fin 2048) (c : Fin 256) :
    tile (F := Ideal) acc xx (ix2 p c) = ∑ i : Fin 4096, xx (ix2 p i) * acc (ix2 c i) := by
  refine (Cert.GNN.matmul_plain_zero_apply (M := 2048) (K := 4096) (N := 256) none _ _ p c).trans ?_
  refine Finset.sum_congr rfl fun i _ => ?_
  rw [shapeCast_self, transpose_ix2_apply, truncf_apply]

/-- The accumulator starts at zero. -/
theorem start_apply (c : Fin 256) (i : Fin 4096) :
    broadcast S256x4096 (Scalar.ofBits (F := Ideal) .f32 0x00000000#32) (ix2 c i) = (0 : EReal) := by
  show Ideal.ofBits .f32 0x00000000#32 = 0
  exact Ideal.ofBits_zero_f32

/-- THE BODY AT AN ENTRY. From the tile's words `q b`, rows `u b` of `u` and `w b` of `vt` of the four planes and from
    `x`, entry `(p, c)` of what the body stores is row `p` of `x` against row `c` of the weights, each weight the four
    planes' signed corrections added: the four additions onto zero are one sum. -/
theorem body_apply (q : Fin 4 → Vec Ideal S1x256x512 .i32) (u : Fin 4 → Vec Ideal S1x256x16 .f32)
    (w : Fin 4 → Vec Ideal S1x16x4096 .f32) (xx : Vec Ideal S2048x4096 .bf16) (p : Fin 2048) (c : Fin 256) :
    k0_pay1 (k0_pay5 k0_pay2 (k0_pay3 (q 0) (u 0) (w 0)) (k0_pay4 (q 1)) (u 1) (w 1) (q 2) (u 2) (w 2))
        (k0_pay6 k0_pay2 (q 3)) (u 3) (w 3) xx (ix2 p c)
      = ∑ i : Fin 4096, xx (ix2 p i) * ∑ b : Fin 4,
          sign .vector (q b (ix3 (0 : Fin 1) c ⟨i.val / 8, by have := i.isLt; omega⟩)) (BitVec.ofNat 32 (i.val % 8))
            * ∑ k : Fin 16, u b (ix3 (0 : Fin 1) c k) * w b (ix3 (0 : Fin 1) k i) := by
  rw [pay1_eq, pay5_eq, pay3_eq, pay4_eq, pay6_eq, tile_apply]
  refine Finset.sum_congr rfl fun i _ => ?_
  refine congrArg (xx (ix2 p i) * ·) ?_
  simp only [addf_apply, mulf_apply, planeSign_apply, lowRank_apply, start_apply]
  exact fold_four fun b => sign .vector (q b (ix3 (0 : Fin 1) c ⟨i.val / 8, by have := i.isLt; omega⟩)) (BitVec.ofNat 32 (i.val % 8))
    * ∑ k : Fin 16, u b (ix3 (0 : Fin 1) c k) * w b (ix3 (0 : Fin 1) k i)

end Cert.KernelIdeal.Body

end
-- ==== Proof.Blocks.lean ====
/-
  From the tiles to the whole array.

  The grid has 43 points; point `t` sees all of `x` and of `vt`, rows `256 t … 256 t + 255` of the packed words (the
  packed array viewed as `[4, 11008, 512]`: word `(b, o, j)` is flat word `o · 512 + j` of plane `b`) and of `u`, and
  writes columns `256 t … 256 t + 255` of the output. What it writes is the layer restricted to those columns, and the
  43 column blocks tile the output, so the output array ends holding the layer of the four argument arrays.
-/
import proofs.«412685_j70798240907324_1_alg».proof.Proof.Gen.KernelIdeal.Value
import proofs.«412685_j70798240907324_1_alg».proof.Proof.Body
import Idealize.ShloMosaic.Lib.StableHlo.Run
import Idealize.ShloMosaic.Lib.Tactic

noncomputable section

namespace Cert.KernelIdeal.Blocks

open Cert.KernelIdeal Cert.KernelIdeal.Gen Cert.KernelIdeal.Value Cert.KernelIdeal.Body
open Idealize.ShloMosaic Idealize.ShloMosaic.TcCoe Idealize.ShloMosaic.ValueIdx Idealize.SL.Sem Cert.BitPlanes
open Idealize.ShloMosaic.Pipeline (Dat)

variable (m : (ℓ : Loc nD τ sig) → Buf (Elt Ideal) ℓ) (ρ : Dev nD → PrngReg)

/-! ## The argument arrays, and the two the host prepares -/

abbrev xArr (c : Dev nD) : S2048x4096.Idx → EReal := m ((c : Thread nD τ).loc main_arg0)
abbrev qArr (c : Dev nD) : S4x5636096.Idx → BitVec 32 := m ((c : Thread nD τ).loc main_arg1)
abbrev uArr (c : Dev nD) : S4x11008x16.Idx → EReal := m ((c : Thread nD τ).loc main_arg2)
abbrev vArr (c : Dev nD) : S4x16x4096.Idx → EReal := m ((c : Thread nD τ).loc main_arg3)

/-- The region finds `x` narrowed to the shorter format: on the reals, `x` itself. -/
theorem V_x (c : Dev nD) : V m c main_v1 = xArr m c := by
  dsimp only [V, hostOps0]
  after_results
  rfl

/-- and the packed words viewed as `[4, 11008, 512]`. -/
theorem V_q (c : Dev nD) : V m c main_v0
    = shapeCast (α := BitVec 32) S4x11008x512 (qArr m c) shapeCasts_S4x5636096_S4x11008x512 := by
  dsimp only [V, hostOps0]
  after_results
  rfl

/-! ## Which block of each array a grid point sees -/

/-- The printed index maps over the 43 points: `x` and `vt` stay at block 0; the words, `u` and the output move
    along their second axis with the point. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = t.val :=
  (by decide +kernel : ∀ t : Fin grid0.N, _)

theorem N_lt (t : Fin cfg0.N) : t.val < 43 := Nat.lt_of_lt_of_eq t.isLt N_0

/-! ## Each block read at an entry -/

abbrev xblk (c : Dev nD) (t : Fin cfg0.N) : Vec Ideal S2048x4096 .bf16 := iblk m c 0 t
abbrev qblk (c : Dev nD) (t : Fin cfg0.N) : Vec Ideal S4x256x512 .i32 := iblk m c 1 t
abbrev ublk (c : Dev nD) (t : Fin cfg0.N) : Vec Ideal S4x256x16 .f32 := iblk m c 2 t
abbrev vblk (c : Dev nD) (t : Fin cfg0.N) : Vec Ideal S4x16x4096 .f32 := iblk m c 3 t

/-- Every point sees the whole of `x`. -/
theorem xblk_apply (c : Dev nD) (t : Fin cfg0.N) (p : Fin 2048) (i : Fin 4096) :
    xblk m c t (ix2 p i) = xArr m c (ix2 p i) := by
  obtain ⟨e0, e1, -⟩ := idx_facts t
  show V m c main_v1 (((cfg0.win 0).blk t).view.emb (ix2 p i)) = _
  rw [V_x]
  refine congrArg (xArr m c) (funext fun a => Fin.ext ?_)
  match a with
  | ⟨0, _⟩ => show win0_0.index t (0 : Fin 2) * 2048 + 1 * p.val = p.val; rw [e0]; omega
  | ⟨1, _⟩ => show win0_0.index t (1 : Fin 2) * 4096 + 1 * i.val = i.val; rw [e1]; omega

/-- Word `(b, cc, j)` of point `t`'s block of packed words is flat word `o · 512 + j` of plane `b`, `o = 256 t + cc`. -/
theorem qblk_apply (c : Dev nD) (t : Fin cfg0.N) (b : Fin 4) (cc : Fin 256) (j : Fin 512) (o : Fin 11008)
    (ho : o.val = 256 * t.val + cc.val) :
    qblk m c t (ix3 b cc j)
      = qArr m c (ix2 b ⟨o.val * 512 + j.val, by have := o.isLt; have := j.isLt; omega⟩) := by
  obtain ⟨-, -, e0, e1, e2, -⟩ := idx_facts t
  show V m c main_v0 (((cfg0.win 1).blk t).view.emb (ix3 b cc j)) = _
  rw [V_q]
  refine shapeCast_apply _ _ _ _ ?_
  rw [Shape.rowMajor_val_two, Shape.rowMajor_val_three]
  show b.val * 5636096 + (o.val * 512 + j.val)
    = ((win0_1.index t (0 : Fin 3) * 4 + 1 * b.val) * 11008 + (win0_1.index t (1 : Fin 3) * 256 + 1 * cc.val)) * 512
      + (win0_1.index t (2 : Fin 3) * 512 + 1 * j.val)
  rw [e0, e1, e2, ho]
  omega

/-- Row `cc` of point `t`'s block of `u` is row `o = 256 t + cc` of `u`. -/
theorem ublk_apply (c : Dev nD) (t : Fin cfg0.N) (b : Fin 4) (cc : Fin 256) (k : Fin 16) (o : Fin 11008)
    (ho : o.val = 256 * t.val + cc.val) : ublk m c t (ix3 b cc k) = uArr m c (ix3 b o k) := by
  obtain ⟨-, -, -, -, -, e0, e1, e2, -⟩ := idx_facts t
  show V m c main_arg2 (((cfg0.win 2).blk t).view.emb (ix3 b cc k)) = _
  rw [V_main_arg2]
  refine congrArg (uArr m c) (funext fun a => Fin.ext ?_)
  match a with
  | ⟨0, _⟩ => show win0_2.index t (0 : Fin 3) * 4 + 1 * b.val = b.val; rw [e0]; omega
  | ⟨1, _⟩ => show win0_2.index t (1 : Fin 3) * 256 + 1 * cc.val = o.val; rw [e1, ho]; omega
  | ⟨2, _⟩ => show win0_2.index t (2 : Fin 3) * 16 + 1 * k.val = k.val; rw [e2]; omega

/-- Every point sees the whole of `vt`. -/
theorem vblk_apply (c : Dev nD) (t : Fin cfg0.N) (b : Fin 4) (k : Fin 16) (i : Fin 4096) :
    vblk m c t (ix3 b k i) = vArr m c (ix3 b k i) := by
  obtain ⟨-, -, -, -, -, -, -, -, e0, e1, e2, -⟩ := idx_facts t
  show V m c main_arg3 (((cfg0.win 3).blk t).view.emb (ix3 b k i)) = _
  rw [V_main_arg3]
  refine congrArg (vArr m c) (funext fun a => Fin.ext ?_)
  match a with
  | ⟨0, _⟩ => show win0_3.index t (0 : Fin 3) * 4 + 1 * b.val = b.val; rw [e0]; omega
  | ⟨1, _⟩ => show win0_3.index t (1 : Fin 3) * 16 + 1 * k.val = k.val; rw [e1]; omega
  | ⟨2, _⟩ => show win0_3.index t (2 : Fin 3) * 4096 + 1 * i.val = i.val; rw [e2]; omega

/-- Column `cc` of point `t`'s output block is column `o = 256 t + cc` of the output. -/
theorem oblk_emb (t : Fin cfg0.N) (p : Fin 2048) (cc : Fin 256) (o : Fin 11008) (ho : o.val = 256 * t.val + cc.val) :
    ((cfg0.win 4).blk t).view.emb (ix2 p cc) = ix2 p o := by
  obtain ⟨-, -, -, -, -, -, -, -, -, -, -, e0, e1⟩ := idx_facts t
  refine funext fun a => Fin.ext ?_
  match a with
  | ⟨0, _⟩ => show win0_4.index t (0 : Fin 2) * 2048 + 1 * p.val = p.val; rw [e0]; omega
  | ⟨1, _⟩ => show win0_4.index t (1 : Fin 2) * 256 + 1 * cc.val = o.val; rw [e1, ho]; omega

/-! ## What one point stores, entry by entry -/

theorem hz2 : (![0, 0] : Fin 2 → Nat) = fun _ => 0 := funext fun a => by fin_cases a <;> rfl

/-- Plane `b` of a `[A, R, C]` block lies inside it. -/
theorem plane_inb {A R C : ℕ} (b : Fin A) :
    ∀ a, (![b.val, 0, 0] : Fin 3 → ℕ) a + (⟨3, ![1, R, C]⟩ : Shape).size a ≤ (⟨3, ![A, R, C]⟩ : Shape).size a := fun a => by
  have := b.isLt
  match a with
  | ⟨0, _⟩ => show b.val + 1 ≤ A; omega
  | ⟨1, _⟩ => show 0 + R ≤ R; omega
  | ⟨2, _⟩ => show 0 + C ≤ C; omega

/-- Plane `b` of a `[A, R, C]` block, loaded as a `[1, R, C]` piece, reads at `(0, r, cc)` the block at `(b, r, cc)`. -/
theorem ld_plane {Val : EltTy → Type} {e : EltTy} {A R C : ℕ} (X : (⟨3, ![A, R, C]⟩ : Shape).Idx → Val e) (b : Fin A)
    (inb : ∀ a, (![b.val, 0, 0] : Fin 3 → ℕ) a + (⟨3, ![1, R, C]⟩ : Shape).size a ≤ (⟨3, ![A, R, C]⟩ : Shape).size a)
    (r : Fin R) (cc : Fin C) :
    View.ld X (Rect.unit (s := ⟨3, ![A, R, C]⟩) ![b.val, 0, 0] (⟨3, ![1, R, C]⟩ : Shape).size inb) (ix3 (0 : Fin 1) r cc)
      = X (ix3 b r cc) :=
  congrArg X (funext fun a => Fin.ext (by
    match a with
    | ⟨0, _⟩ => show b.val + 1 * 0 = b.val; omega
    | ⟨1, _⟩ => show 0 + 1 * r.val = r.val; omega
    | ⟨2, _⟩ => show 0 + 1 * cc.val = cc.val; omega))

/-- THE STORE AT AN ENTRY, from the four blocks a point sees: row `p` of `x` against the four planes' signed
    corrections of the block's row `cc`, added. -/
theorem stored_apply (X0 : Vec Ideal S2048x4096 .bf16) (X1 : Vec Ideal S4x256x512 .i32) (X2 : Vec Ideal S4x256x16 .f32)
    (X3 : Vec Ideal S4x16x4096 .f32) (p : Fin 2048) (cc : Fin 256) :
    out0_4 X0 X1 X2 X3 (ix2 p cc)
      = ∑ i : Fin 4096, X0 (ix2 p i) * ∑ b : Fin 4,
          sign .vector (X1 (ix3 b cc ⟨i.val / 8, by have := i.isLt; omega⟩)) (BitVec.ofNat 32 (i.val % 8))
            * ∑ k : Fin 16, X2 (ix3 b cc k) * X3 (ix3 b k i) := by
  unfold out0_4
  rw [View.canon_unit_zero hz2]
  simp only [View.ld_unit_zero (S := S2048x4096) hz2]
  refine (body_apply
    (fun b => View.ld X1 (Rect.unit (s := S4x256x512) ![b.val, 0, 0] S1x256x512.size (plane_inb b)))
    (fun b => View.ld X2 (Rect.unit (s := S4x256x16) ![b.val, 0, 0] S1x256x16.size (plane_inb b)))
    (fun b => View.ld X3 (Rect.unit (s := S4x16x4096) ![b.val, 0, 0] S1x16x4096.size (plane_inb b))) X0 p cc).trans ?_
  refine Finset.sum_congr rfl fun i _ => congrArg (X0 (ix2 p i) * ·) (Finset.sum_congr rfl fun b _ => ?_)
  dsimp only
  rw [ld_plane X1 b]
  refine congrArg (sign .vector _ _ * ·) (Finset.sum_congr rfl fun k _ => ?_)
  rw [ld_plane X2 b, ld_plane X3 b]

/-! ## The output array after the run -/

/-- The layer of the four argument arrays of core `c`. -/
abbrev result (c : Dev nD) : S2048x11008.Idx → EReal := layer (xArr m c) (qArr m c) (uArr m c) (vArr m c)

/-- WHAT POINT `t` WRITES BACK is its block of columns of the layer: at column `cc` of the block the store is row
    `o = 256 t + cc` of the weights against `x`, each block read where the argument arrays keep it; the signs do not
    depend on which unit shifts, the bit positions being below eight. -/
theorem flushed_eq (c : Dev nD) (t : Fin cfg0.N) :
    (dats m 0 c).flushed 4 t = ((cfg0.win 4).blk t).view.read (Elt Ideal) (result m c) := by
  rw [flushed4]
  funext y
  obtain ⟨p, cc, rfl⟩ : ∃ (p : Fin 2048) (cc : Fin 256), y = ix2 p cc := ⟨y 0, y 1, eq_ix2 y⟩
  have ht := N_lt t
  have hcc := cc.isLt
  obtain ⟨o, ho⟩ : ∃ o : Fin 11008, o.val = 256 * t.val + cc.val := ⟨⟨256 * t.val + cc.val, by omega⟩, rfl⟩
  show out0_4 (xblk m c t) (qblk m c t) (ublk m c t) (vblk m c t) (ix2 p cc)
    = result m c (((cfg0.win 4).blk t).view.emb (ix2 p cc))
  rw [oblk_emb t p cc o ho]
  refine (stored_apply _ _ _ _ p cc).trans ?_
  show _ = ∑ i : Fin 4096, xArr m c (ix2 p i) * weight (qArr m c) (uArr m c) (vArr m c) o i
  refine Finset.sum_congr rfl fun i _ => ?_
  rw [xblk_apply]
  refine congrArg (xArr m c (ix2 p i) * ·) ?_
  unfold weight
  refine Finset.sum_congr rfl fun b _ => ?_
  rw [qblk_apply m c t b cc _ o ho, sign_unit .vector .host _ _ (Nat.mod_lt _ (by decide))]
  refine congrArg (sign .host _ _ * ·) (Finset.sum_congr rfl fun k _ => ?_)
  rw [ublk_apply m c t b cc k o ho, vblk_apply]

/-- An index of the output is in point `t`'s block iff each coordinate is in the block's range on its axis. -/
theorem mem_blk (t : Fin cfg0.N) (i : S2048x11008.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v2).slice (win0_4.rect t)).set ↔ _
  rw [View.set_slice_whole, Rect.mem_set_unit]
  exact Iff.rfl

/-- The 43 blocks of 256 columns tile the 11008 columns: column `o` is in the block of point `o / 256`. -/
theorem cover (i : S2048x11008.Idx) :
    ∃ t : Fin cfg0.N, (cfg0.win 4).flush t = true ∧ i ∈ ((cfg0.win 4).blk t).view.set := by
  have h0 : (i 0).val < 2048 := (i 0).isLt
  have h1 : (i 1).val < 11008 := (i 1).isLt
  obtain ⟨t, htv⟩ : ∃ t : Fin cfg0.N, t.val = (i 1).val / 256 :=
    ⟨⟨(i 1).val / 256, by rw [show cfg0.N = 43 from N_0]; omega⟩, rfl⟩
  obtain ⟨-, -, -, -, -, -, -, -, -, -, -, e0, e1⟩ := idx_facts t
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    rw [e0]; omega
  | ⟨1, _⟩ =>
    show win0_4.index t (1 : Fin 2) * 256 ≤ (i 1).val ∧ (i 1).val < win0_4.index t (1 : Fin 2) * 256 + 256
    rw [e1, htv]; omega

/-- So the output array ends holding the layer of the four argument arrays. -/
theorem final (c : Dev nD) : (dats m 0 c).arrAt 4 cfg0.N = result m c :=
  (dats m 0 c).arrAt_eq_of_cover 4 (result m c) (fun t _ => flushed_eq m c t) cover

/-- The kernel's run, read: the output at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.Reference.lean ====
/-
  The reference computes the layer.

  Read one operation at a time, the host program unpacks every word of the packed array into its eight signs, lays the
  signs out as `[4, 11008, 4096]` (so that the sign of plane `b` at `(o, i)` comes from flat position `o · 512 + i / 8`,
  bit `i % 8`), multiplies by the batched rank-16 product, adds the four planes onto zero and multiplies `x` by the
  transpose. Index by index that is `Cert.BitPlanes.layer`: the only arithmetic is the division of a flat position
  into its three coordinates.
-/
import proofs.«412685_j70798240907324_1_alg».proof.Proof.Gen.ReferenceIdeal.Read
import proofs.«412685_j70798240907324_1_alg».proof.Proof.Spec

noncomputable section

namespace Cert.ReferenceIdeal.RefValue

open Cert.ReferenceIdeal Cert.ReferenceIdeal.Read Idealize.ShloMosaic Idealize.ShloMosaic.ValueIdx Cert.BitPlanes

/-- The word the reshaped sign array reads at `(b, o, i)` is the packed word at flat position `o · 512 + i / 8` of plane `b`. -/
theorem word_idx (b : Fin 4) (o : Fin 11008) (i : Fin 4096) :
    idx_main_v1 (idx_main_v3 (idx_main_v13 (ix3 b o i))) = wordAt b o i := by
  have hb := b.isLt; have ho := o.isLt; have hi := i.isLt
  funext a
  refine Fin.ext ?_
  match a with
  | ⟨0, _⟩ =>
    show ((b.val * 11008 + o.val) * 4096 + i.val) / 45088768 = b.val
    omega
  | ⟨1, _⟩ =>
    show ((b.val * 11008 + o.val) * 4096 + i.val) / 8 % 5636096 = o.val * 512 + i.val / 8
    omega

/-- and the bit it shifts to is `i % 8`. -/
theorem bit_idx (b : Fin 4) (o : Fin 11008) (i : Fin 4096) :
    ((idx_main_v2 (idx_main_v4 (idx_main_v13 (ix3 b o i)))) 0).val = i.val % 8 := by
  have hb := b.isLt; have ho := o.isLt; have hi := i.isLt
  show ((b.val * 11008 + o.val) * 4096 + i.val) % 8 = i.val % 8
  omega

/-- The sign array of the reference at `(b, o, i)`. -/
theorem sign_apply (x1 : (⟨S4x5636096, .i32⟩ : BufTy).Contents (Elt Ideal)) (b : Fin 4) (o : Fin 11008) (i : Fin 4096) :
    val_main_v13 (F := Ideal) x1 (ix3 b o i) = sign .host (x1 (wordAt b o i)) (BitVec.ofNat 32 (i.val % 8)) := by
  rw [val_main_v13_apply, val_main_v12_apply, val_main_v11_apply, val_main_v9_apply, val_main_v10_apply,
    val_main_c_1_apply, val_main_v8_apply, val_main_c_0_apply, val_main_v7_apply, val_main_v6_apply, val_main_c_apply,
    val_main_v5_apply, val_main_v3_apply, val_main_v1_apply, val_main_v4_apply, val_main_v2_apply, val_main_v0_apply,
    word_idx, bit_idx]
  rfl

/-- The reference's result is the layer of its four arguments. -/
theorem result_eq (x0 : (⟨S2048x4096, .f32⟩ : BufTy).Contents (Elt Ideal)) (x1 : (⟨S4x5636096, .i32⟩ : BufTy).Contents (Elt Ideal))
    (x2 : (⟨S4x11008x16, .f32⟩ : BufTy).Contents (Elt Ideal)) (x3 : (⟨S4x16x4096, .f32⟩ : BufTy).Contents (Elt Ideal)) :
    val_main_v18 (F := Ideal) x0 x1 x2 x3 = layer x0 x1 x2 x3 := by
  funext j
  obtain ⟨p, o, rfl⟩ : ∃ (p : Fin 2048) (o : Fin 11008), j = ix2 p o := ⟨j 0, j 1, eq_ix2 j⟩
  rw [val_main_v18_apply]
  show _ = ∑ i : Fin 4096, x0 (ix2 p i) * weight x1 x2 x3 o i
  refine Finset.sum_congr rfl fun i _ => ?_
  have e0 : lidx_main_v18 (ix2 p o) i = ix2 p i :=
    funext fun a => Fin.ext (by match a with | ⟨0, _⟩ => rfl | ⟨1, _⟩ => rfl)
  rw [e0, val_main_v17_apply, val_main_v16_apply, val_main_cst_apply, Ideal.ofBits_def, Ideal.ofBits_zero_f32, zero_add]
  refine congrArg (x0 (ix2 p i) * ·) ?_
  unfold weight
  refine Finset.sum_congr rfl fun b _ => ?_
  have e1 : idx_main_v16 (idx_main_v17 (ridx_main_v18 (ix2 p o) i)) b = ix3 b o i :=
    funext fun a => Fin.ext (by match a with | ⟨0, _⟩ => rfl | ⟨1, _⟩ => rfl | ⟨2, _⟩ => rfl)
  rw [e1, val_main_v15_apply, Ideal.mulf_def, sign_apply, val_main_v14_apply]
  refine congrArg (sign .host (x1 (wordAt b o i)) (BitVec.ofNat 32 (i.val % 8)) * ·) ?_
  refine Finset.sum_congr rfl fun k _ => ?_
  have el : lidx_main_v14 (ix3 b o i) k = ix3 b o k :=
    funext fun a => Fin.ext (by match a with | ⟨0, _⟩ => rfl | ⟨1, _⟩ => rfl | ⟨2, _⟩ => rfl)
  have er : ridx_main_v14 (ix3 b o i) k = ix3 b k i :=
    funext fun a => Fin.ext (by match a with | ⟨0, _⟩ => rfl | ⟨1, _⟩ => rfl | ⟨2, _⟩ => rfl)
  rw [el, er]

end Cert.ReferenceIdeal.RefValue

end
-- ==== Proof.lean ====
/-
  The bit-plane linear layer: a tiled kernel against its plain reference, on the extended reals.

  Both programs compute `y (t, o) = ∑ i, x (t, i) · W (o, i)` with the weight matrix rebuilt from four packed bit
  planes, `W (o, i) = ∑ b, sgn_b (o, i) · ∑ k, u (b, o, k) · vt (b, k, i)` (Proof/Spec.lean: `Cert.BitPlanes.layer`).
  The reference unpacks all the signs at once, forms the batched rank-16 products, adds the planes and multiplies by
  the transpose (Proof/Reference.lean). The kernel works on 43 tiles of 256 output rows: for a tile it unpacks the
  tile's words, adds the four planes' signed corrections one after another onto zero, and multiplies `x` by the tile's
  weights transposed (Proof/Body.lean); the tiles' results are 43 disjoint blocks of columns that fill the output
  (Proof/Blocks.lean). The two agree because
    • the sign of plane `b` at `(o, i)` is in both programs bit `i % 8` of flat word `o · 512 + i / 8` — the
      reference reshapes `[4, 5636096, 8]` to `[4, 11008, 4096]`, the kernel's host code reshapes the words to
      `[4, 11008, 512]` and the body lays `[256, 512, 8]` out as `[256, 4096]` —, and an arithmetic shift by a
      position below eight is the same word on the vector unit as in the host program;
    • four terms added in turn onto zero are their sum, addition on the extended reals being associative with unit
      zero — nothing is distributed or cancelled, so the inputs' finiteness is never used;
    • narrowing `x` and the weights to a shorter float format is the identity on the reals, and a product into a zero
      accumulator is the plain sum over the contracted index, as the host's product is.
  The idealization rewrote nothing, so its soundness claim is trivial; the three frames are the generated ones (the
  reference's is its generated run with the result dropped).
-/
import proofs.«412685_j70798240907324_1_alg».proof.Defs
import proofs.«412685_j70798240907324_1_alg».proof.Proof.Gen.Kernel
import proofs.«412685_j70798240907324_1_alg».proof.Proof.Gen.Kernel.Frame
import proofs.«412685_j70798240907324_1_alg».proof.Proof.Gen.KernelIdeal
import proofs.«412685_j70798240907324_1_alg».proof.Proof.Gen.KernelIdeal.Frame
import proofs.«412685_j70798240907324_1_alg».proof.Proof.Gen.KernelIdeal.Value
import proofs.«412685_j70798240907324_1_alg».proof.Proof.Gen.ReferenceIdeal
import proofs.«412685_j70798240907324_1_alg».proof.Proof.Gen.ReferenceIdeal.Run
import proofs.«412685_j70798240907324_1_alg».proof.Proof.Gen.ReferenceIdeal.Read
import proofs.«412685_j70798240907324_1_alg».proof.Proof.Gen.Pre_finite_inputs
import proofs.«412685_j70798240907324_1_alg».proof.Proof.Blocks
import proofs.«412685_j70798240907324_1_alg».proof.Proof.Reference
import Idealize.ShloMosaic.Adequacy
import Idealize.ShloMosaic.Init

noncomputable section

namespace Cert.Proof

open Idealize.ShloMosaic Idealize.SL.Sem

/-- The reference runs and leaves its arguments as they were: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments in their
    result: the kernel's output array by the tiles (`Blocks.run`), the reference's by reading its operations one at a
    time (`RefValue.result_eq`). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
